-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x4096, .f32⟩
  | .hbm, ⟨6, _⟩ => ⟨S16384x4096, .bf16⟩
  | .hbm, ⟨7, _⟩ => ⟨S1x16384, .f32⟩
  | .hbm, ⟨8, _⟩ => ⟨S8192x16384, .f32⟩
  | .hbm, ⟨9, _⟩ => ⟨S4x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S4x2048x16384, .f32⟩
  | .hbm, ⟨5, _⟩ => ⟨S1x1x16384, .f32⟩
  | .hbm, ⟨6, _⟩ => ⟨S4x2048x16384, .f32⟩
  | .hbm, ⟨7, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The layer this certificate is about, as one function of its three argument arrays.

  A dense layer over sign-binarised weights: for a batch index `b`, a sequence position `s` and an output
  feature `o`,

      out[b, s, o] = (Σ_{k < 4096} x[b, s, k] · ws[o, k]) + bias[o],

  where `ws` stands for the sign matrix of the weights (both programs apply the same entrywise sign to the
  same weight array before anything else, so the sign itself never has to be opened).  All values are extended
  reals; the only algebra used anywhere below is that a sum and a product are what they are: no
  distributivity, no cancellation, hence no finiteness.

  The kernel does not see the batch and sequence axes: it works on the 8192 = 4 · 2048 rows of the flattened
  activations, row `r = b · 2048 + s`.  `rows` is that flattened form and `rows_flat` says the two agree when
  the flattened operands are read where the row-major flattening puts them.
-/
import Idealize.ShloMosaic.PureOps.Ideal
import Idealize.ShloMosaic.Lib.ValueIdx

noncomputable section

namespace Cert.SignDense

open Idealize.ShloMosaic Idealize.ShloMosaic.ValueIdx

/-- One entry of the layer's output: the inner product of activation row `(b, s)` with weight-sign row `o`,
    plus the bias of feature `o`. -/
def entry (x : (⟨3, ![4, 2048, 4096]⟩ : Shape).Idx → EReal) (ws : (⟨2, ![16384, 4096]⟩ : Shape).Idx → EReal)
    (bias : (⟨1, ![16384]⟩ : Shape).Idx → EReal) (b : Fin 4) (s : Fin 2048) (o : Fin 16384) : EReal :=
  (∑ k : Fin 4096, x (ix3 b s k) * ws (ix2 o k)) + bias (ix1 o)

/-- The layer's whole output array `[4, 2048, 16384]`. -/
def dense (x : (⟨3, ![4, 2048, 4096]⟩ : Shape).Idx → EReal) (ws : (⟨2, ![16384, 4096]⟩ : Shape).Idx → EReal)
    (bias : (⟨1, ![16384]⟩ : Shape).Idx → EReal) : (⟨3, ![4, 2048, 16384]⟩ : Shape).Idx → EReal :=
  fun i => entry x ws bias (i 0) (i 1) (i 2)

/-- The same layer on flattened operands: activations as `[8192, 4096]` rows, the bias as a `[1, 16384]` row;
    entry `(r, o)` of the `[8192, 16384]` result. -/
def rows (X : (⟨2, ![8192, 4096]⟩ : Shape).Idx → EReal) (ws : (⟨2, ![16384, 4096]⟩ : Shape).Idx → EReal)
    (B : (⟨2, ![1, 16384]⟩ : Shape).Idx → EReal) : (⟨2, ![8192, 16384]⟩ : Shape).Idx → EReal :=
  fun j => (∑ k : Fin 4096, X (ix2 (j 0) k) * ws (ix2 (j 1) k)) + B (ix2 (0 : Fin 1) (j 1))

/-- Row `b · 2048 + s` of the flattened layer is entry `(b, s, ·)` of the layer, when the flattened activations
    hold `x[b, s, ·]` in row `b · 2048 + s` and the bias row holds the bias. -/
theorem rows_flat (x : (⟨3, ![4, 2048, 4096]⟩ : Shape).Idx → EReal) (ws : (⟨2, ![16384, 4096]⟩ : Shape).Idx → EReal)
    (bias : (⟨1, ![16384]⟩ : Shape).Idx → EReal)
    (X : (⟨2, ![8192, 4096]⟩ : Shape).Idx → EReal) (B : (⟨2, ![1, 16384]⟩ : Shape).Idx → EReal)
    (hX : ∀ (b : Fin 4) (s : Fin 2048) (r : Fin 8192), r.val = b.val * 2048 + s.val → ∀ k : Fin 4096, X (ix2 r k) = x (ix3 b s k))
    (hB : ∀ o : Fin 16384, B (ix2 (0 : Fin 1) o) = bias (ix1 o))
    (b : Fin 4) (s : Fin 2048) (o : Fin 16384) (r : Fin 8192) (hr : r.val = b.val * 2048 + s.val) :
    rows X ws B (ix2 r o) = entry x ws bias b s o := by
  unfold rows entry
  rw [hB o]
  exact congrArg (· + bias (ix1 o)) (Finset.sum_congr rfl fun k _ => by rw [hX b s r hr k])

end Cert.SignDense

end
-- ==== Proof.RefValue.lean ====
/-
  The reference computes the layer.

  Read one operation at a time, the reference's result at an index `(b, s, o)` is the contraction over the last axis
  of the activations with the sign matrix, `Σ_k x[b, s, k] · sign(W)[o, k]`, plus the bias broadcast along the two
  leading axes, i.e. `bias[o]`.  That is `SignDense.dense` at the sign matrix, term for term: the only work is to
  name the operand indices by their coordinates.
-/
import proofs.«413620_j18580028523110_3_alg».proof.Proof.Gen.ReferenceIdeal.Read
import proofs.«413620_j18580028523110_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The contraction reads the activations at `(b, s, k)`. -/
theorem lidx_eq (i : S4x2048x16384.Idx) (k : Fin 4096) : lidx_main_v1 i k = ix3 (i 0) (i 1) k :=
  funext fun a => Fin.ext (by match a with | ⟨0, _⟩ => rfl | ⟨1, _⟩ => rfl | ⟨2, _⟩ => rfl)

/-- The contraction reads the sign matrix at `(o, k)`. -/
theorem ridx_eq (i : S4x2048x16384.Idx) (k : Fin 4096) : ridx_main_v1 i k = ix2 (i 2) k :=
  funext fun a => Fin.ext (by match a with | ⟨0, _⟩ => rfl | ⟨1, _⟩ => rfl)

/-- The twice-broadcast bias reads the bias at `o`. -/
theorem bidx_eq (i : S4x2048x16384.Idx) : idx_main_v2 (idx_main_v3 i) = ix1 (i 2) :=
  funext fun a => Fin.ext (by match a with | ⟨0, _⟩ => rfl)

/-- The reference's result is the layer at the sign matrix of the weights. -/
theorem result_eq (x : (⟨S4x2048x4096, .f32⟩ : BufTy).Contents (Elt Ideal)) (w : (⟨S16384x4096, .f32⟩ : BufTy).Contents (Elt Ideal))
    (bias : (⟨S16384, .f32⟩ : BufTy).Contents (Elt Ideal)) :
    val_main_v4 (F := Ideal) x w bias = Cert.SignDense.dense x (Host.sign (F := Ideal) (φ := .f32) w) bias := by
  funext i
  rw [val_main_v4_apply, val_main_v1_apply, val_main_v3_apply, val_main_v2_apply, bidx_eq]
  unfold Cert.SignDense.dense Cert.SignDense.entry val_main_v0
  rw [Ideal.addf_def]
  exact congrArg (· + bias (ix1 (i 2))) (Finset.sum_congr rfl fun k _ => by rw [lidx_eq, ridx_eq]; rfl)

end Cert.ReferenceIdeal.RefValue

end
-- ==== Proof.Tile.lean ====
/-
  One grid point's arithmetic, read entry by entry.

  At a grid point the body holds a `[1024, 4096]` block of activation rows, a `[512, 4096]` block of weight-sign rows
  and a `[1, 512]` slice of the bias, and stores the `[1024, 512]` tile

      tile[p, q] = (Σ_{k < 4096} xblk[p, k] · wblk[q, k]) + bblk[0, q]:

  the matrix unit contracts the last axis of both operands into a zero accumulator, which over the extended reals is
  just the sum of the products, and the bias row is broadcast down the 1024 rows.  `tile_eq_rows` then says this is the
  matching entry of the flattened layer (`SignDense.rows`) whenever the three blocks are the rows `ti · 1024 + p`,
  `tj · 512 + q` and the bias columns `tj · 512 + q` of the whole arrays.
-/
import proofs.«413620_j18580028523110_3_alg».proof.Proof.Gen.KernelIdeal.Skeleton
import proofs.«413620_j18580028523110_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The contraction's operand indices, axis by axis -/

theorem lhs_axis0 (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_axis1 (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
theorem rhs_axis0 (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_axis1 (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- The matrix unit's product into a zero accumulator, at entry `(p, q)`: row `p` of the left operand against row `q`
    of the right, summed over the shared last axis. -/
theorem matmul_entry (x0 : FVec Ideal S1024x4096 .bf16) (x1 : FVec Ideal S512x4096 .bf16) (j : S1024x512.Idx) :
    matmul dot_S1024x4096_S512x4096_S1024x512_1_1_0_0_n_n none x0 x1 (constant (F := Ideal) S1024x512 .f32 0x00000000#32) j
      = ∑ k : Fin 4096, x0 (ix2 (j 0) k) * x1 (ix2 (j 1) k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx j ((contrEquiv1 dot_S1024x4096_S512x4096_S1024x512_1_1_0_0_n_n 4096 rfl rfl).symm k) = ix2 (j 0) k := funext fun a => Fin.ext (by
    match a with
    | ⟨0, _⟩ => exact lhs_axis0 _ _
    | ⟨1, _⟩ => exact (lhs_axis1 _ _).trans hk)
  have er : dot_S1024x4096_S512x4096_S1024x512_1_1_0_0_n_n.rhsIdx j ((contrEquiv1 dot_S1024x4096_S512x4096_S1024x512_1_1_0_0_n_n 4096 rfl rfl).symm k) = ix2 (j 1) k := funext fun a => Fin.ext (by
    match a with
    | ⟨0, _⟩ => exact rhs_axis0 _ _
    | ⟨1, _⟩ => exact (rhs_axis1 _ _).trans hk)
  rw [el, er]
  rfl

/-! ## The stored tile -/

/-- Entry `(p, q)` of the tile the body stores. -/
theorem tile_apply (x0 : Vec Ideal S1024x4096 .bf16) (x1 : Vec Ideal S512x4096 .bf16) (x2 : Vec Ideal S1x512 .f32)
    (p : Fin 1024) (q : Fin 512) :
    k0_pay1 (F := Ideal) x0 x1 x2 (ix2 p q) = (∑ k : Fin 4096, x0 (ix2 p k) * x1 (ix2 q k)) + x2 (ix2 (0 : Fin 1) q) := by
  unfold k0_pay1
  rw [addf_apply, shapeCast_self, shapeCast_self, shapeCast_self, matmul_entry, broadcastTo_1b_ab_apply]

/-- The tile is the block of the flattened layer it stands for: with the activation block holding rows
    `ti · 1024 + p`, the weight-sign block rows `tj · 512 + q` and the bias slice columns `tj · 512 + q`, entry
    `(p, q)` of the tile is entry `(ti · 1024 + p, tj · 512 + q)` of `SignDense.rows`. -/
theorem tile_eq_rows (X : S8192x4096.Idx → EReal) (Wb : S16384x4096.Idx → EReal) (B : S1x16384.Idx → EReal)
    (x0 : Vec Ideal S1024x4096 .bf16) (x1 : Vec Ideal S512x4096 .bf16) (x2 : Vec Ideal S1x512 .f32) (ti tj : Nat)
    (h0 : ∀ (p : Fin 1024) (k : Fin 4096) (r : Fin 8192), r.val = ti * 1024 + p.val → x0 (ix2 p k) = X (ix2 r k))
    (h1 : ∀ (q : Fin 512) (k : Fin 4096) (o : Fin 16384), o.val = tj * 512 + q.val → x1 (ix2 q k) = Wb (ix2 o k))
    (h2 : ∀ (q : Fin 512) (o : Fin 16384), o.val = tj * 512 + q.val → x2 (ix2 (0 : Fin 1) q) = B (ix2 (0 : Fin 1) o))
    (y : S1024x512.Idx) (i : S8192x16384.Idx) (hi0 : (i 0).val = ti * 1024 + (y 0).val) (hi1 : (i 1).val = tj * 512 + (y 1).val) :
    k0_pay1 (F := Ideal) x0 x1 x2 y = Cert.SignDense.rows X Wb B i := by
  obtain ⟨p, q, rfl⟩ : ∃ (p : Fin 1024) (q : Fin 512), y = ix2 p q := ⟨y 0, y 1, eq_ix2 y⟩
  rw [tile_apply]
  unfold Cert.SignDense.rows
  rw [h2 q (i 1) hi1]
  exact congrArg (· + B (ix2 (0 : Fin 1) (i 1))) (Finset.sum_congr rfl fun k _ => by rw [h0 p k (i 0) hi0, h1 q k (i 1) hi1])

end Cert.KernelIdeal.Tile

end
-- ==== Proof.Region.lean ====
/-
  The result array the region leaves: the flattened layer, whole.

  The grid is 8 × 32 and point `t` stands for the pair `(t / 32, t % 32)`: it fetches activation rows
  `[(t / 32) · 1024, +1024)`, weight-sign rows `[(t % 32) · 512, +512)` and the same columns of the bias row, and writes
  back the `[1024, 512]` tile at rows `(t / 32) · 1024`, columns `(t % 32) · 512` of the `[8192, 16384]` result.  What it
  writes is the block of ONE whole-array function, the flattened layer `SignDense.rows` of the three arrays as the
  region finds them (`wrote_block`); the 256 tiles cover the result (entry `(r, o)` lies in the tile of point
  `(r / 1024) · 32 + o / 512`), so after the last point the array is that function (`result_rows`).
-/
import proofs.«413620_j18580028523110_3_alg».proof.Proof.Gen.KernelIdeal.Frame
import proofs.«413620_j18580028523110_3_alg».proof.Proof.Tile
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- Which block of its array each window is on at point `t`, for all 256 points: the result and the activations move
    with `t / 32` along the rows, the result, the weight signs and the bias with `t % 32`; the contracted axis is never cut. -/
theorem block_at : ∀ t : Fin cfg0.N,
    win0_3.index t (0 : Fin 2) = t.val / 32 ∧ win0_3.index t (1 : Fin 2) = t.val % 32
    ∧ win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32 :=
  (by decide +kernel : ∀ t : Fin grid0.N, _)

/-- The flattened layer of the three arrays the region is launched on. -/
abbrev layerRows (c : Dev nD) : S8192x16384.Idx → EReal :=
  Cert.SignDense.rows (V m c main_v1) (V m c main_v3) (V m c main_v4)

/-- What point `t` writes back is block `t` of the flattened layer. -/
theorem wrote_block (c : Dev nD) (t : Fin cfg0.N) :
    (dats m 0 c).flushed 3 t = ((cfg0.win 3).blk t).view.read (Elt Ideal) (layerRows m c) := by
  show (cfg0.win 3).cut (grid0.coords t) ((dats m 0 c).after 3 t) = _
  rw [after0_3]
  unfold out0_3
  rw [View.canon_unit_zero origin]
  simp only [View.ld_unit_zero (S := S1024x4096) origin, View.ld_unit_zero (S := S512x4096) origin, View.ld_unit_zero (S := S1x512) origin]
  obtain ⟨e30, e31, e00, e01, e10, e11, e20, e21⟩ := block_at t
  funext j
  refine Cert.KernelIdeal.Tile.tile_eq_rows (V m c main_v1) (V m c main_v3) (V m c main_v4)
    (iblk m c 0 t) (iblk m c 1 t) (iblk m c 2 t) (t.val / 32) (t.val % 32) ?_ ?_ ?_ j (((cfg0.win 3).blk t).view.emb j) ?_ ?_
  · intro p k r hr
    show V m c main_v1 (((cfg0.win 0).blk t).view.emb (ix2 p k)) = V m c main_v1 (ix2 r k)
    refine congrArg _ (funext fun a => Fin.ext ?_)
    match a with
    | ⟨0, _⟩ => show win0_0.index t (0 : Fin 2) * 1024 + 1 * p.val = r.val; omega
    | ⟨1, _⟩ => show win0_0.index t (1 : Fin 2) * 4096 + 1 * k.val = k.val; omega
  · intro q k o ho
    show V m c main_v3 (((cfg0.win 1).blk t).view.emb (ix2 q k)) = V m c main_v3 (ix2 o k)
    refine congrArg _ (funext fun a => Fin.ext ?_)
    match a with
    | ⟨0, _⟩ => show win0_1.index t (0 : Fin 2) * 512 + 1 * q.val = o.val; omega
    | ⟨1, _⟩ => show win0_1.index t (1 : Fin 2) * 4096 + 1 * k.val = k.val; omega
  · intro q o ho
    show V m c main_v4 (((cfg0.win 2).blk t).view.emb (ix2 (0 : Fin 1) q)) = V m c main_v4 (ix2 (0 : Fin 1) o)
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = o.val; omega
  · show win0_3.index t (0 : Fin 2) * 1024 + 1 * (j 0).val = t.val / 32 * 1024 + (j 0).val; omega
  · show win0_3.index t (1 : Fin 2) * 512 + 1 * (j 1).val = t.val % 32 * 512 + (j 1).val; omega

/-- An entry of the result lies in point `t`'s tile iff each coordinate lies in the tile's range on its axis. -/
theorem mem_tile (t : Fin cfg0.N) (i : S8192x16384.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5).slice (win0_3.rect t)).set ↔ _
  rw [View.set_slice_whole, Rect.mem_set_unit]
  exact Iff.rfl

/-- Every entry `(r, o)` of the result is in the tile of point `(r / 1024) · 32 + o / 512`, which is written back. -/
theorem tiles_cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hN : cfg0.N = 256 := N_0
  obtain ⟨t, ht⟩ : ∃ t : Fin cfg0.N, t.val = (i 0).val / 1024 * 32 + (i 1).val / 512 :=
    ⟨⟨(i 0).val / 1024 * 32 + (i 1).val / 512, by omega⟩, rfl⟩
  obtain ⟨e30, e31, -⟩ := block_at t
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the last point is the flattened layer. -/
theorem result_rows (c : Dev nD) : (dats m 0 c).arrAt 3 cfg0.N = layerRows m c :=
  (dats m 0 c).arrAt_eq_of_cover 3 (layerRows m c) (fun t _ => wrote_block m c t) tiles_cover

end Cert.KernelIdeal.Region

end
-- ==== Proof.Whole.lean ====
/-
  The host operations around the region, and the kernel's run.

  Before the region the program flattens the activations to `[8192, 4096]` rows (row `b · 2048 + s` holds
  `x[b, s, ·]`, row-major), takes the entrywise sign of the weights, and views the bias as one `[1, 16384]` row; the two
  changes of float format in between are the identity on extended reals.  After the region it views the `[8192, 16384]`
  result as `[4, 2048, 16384]` again, entry `(b, s, o)` being entry `(b · 2048 + s, o)`.  With the region's result the
  flattened layer of those three arrays (`Region.result_rows`), the program's result is the layer itself
  (`SignDense.rows_flat`), at the sign matrix of the weights as launched.
-/
import proofs.«413620_j18580028523110_3_alg».proof.Proof.Region
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region is launched on -/

/-- The activation rows the region reads: the launched activations flattened (the change of format is the identity). -/
theorem rows_launched (c : Dev nD) : (V m c main_v1 : S8192x4096.Idx → EReal)
    = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- Row `b · 2048 + s` of them is `x[b, s, ·]`. -/
theorem rows_launched_apply (c : Dev nD) (b : Fin 4) (s : Fin 2048) (r : Fin 8192) (hr : r.val = b.val * 2048 + s.val) (k : Fin 4096) :
    V m c main_v1 (ix2 r k) = m ((c : Thread nD τ).loc main_arg0) (ix3 b s k) := by
  rw [rows_launched, truncf_apply]
  exact shapeCast_apply _ shapeCasts_S4x2048x4096_S8192x4096 (ix2 r k) (ix3 b s k) (by
    rw [Shape.rowMajor_val_three, Shape.rowMajor_val_two]
    show (b.val * 2048 + s.val) * 4096 + k.val = r.val * 4096 + k.val
    rw [hr])

/-- The weight rows the region reads: the entrywise sign of the launched weights. -/
theorem signs_launched (c : Dev nD) : (V m c main_v3 : S16384x4096.Idx → EReal)
    = Host.sign (F := Ideal) (φ := .f32) (m ((c : Thread nD τ).loc main_arg1)) := by
  show StableHlo.after hostOps0 (fun b => m (c, b)) (Proc.devRef .tc main_v3) = _
  after_results
  rfl

/-- The bias row the region reads: the launched bias as one row. -/
theorem bias_launched (c : Dev nD) : (V m c main_v4 : S1x16384.Idx → EReal)
    = shapeCast S1x16384 (m ((c : Thread nD τ).loc main_arg2)) shapeCasts_S16384_S1x16384 := by
  show StableHlo.after hostOps0 (fun b => m (c, b)) (Proc.devRef .tc main_v4) = _
  after_results
  rfl

theorem bias_launched_apply (c : Dev nD) (o : Fin 16384) :
    V m c main_v4 (ix2 (0 : Fin 1) o) = m ((c : Thread nD τ).loc main_arg2) (ix1 o) := by
  rw [bias_launched]
  exact shapeCast_a_1a_apply _ shapeCasts_S16384_S1x16384 (0 : Fin 1) o

/-! ## The program's result -/

/-- After the region and the closing view, the result array is the layer of the launched arguments. -/
theorem result_eq (c : Dev nD) :
    Pipeline.afterTail₀ cfgs (dats m) 0 (V0 m) [hostOps1] c main_v6
      = Cert.SignDense.dense (m ((c : Thread nD τ).loc main_arg0)) (Host.sign (F := Ideal) (φ := .f32) (m ((c : Thread nD τ).loc main_arg1)))
          (m ((c : Thread nD τ).loc main_arg2)) := by
  unfold Pipeline.afterTail₀
  show StableHlo.after hostOps1 _ (Proc.devRef .tc main_v6) = _
  after_results
  have hw : Pipeline.withArrays spec0 c (V0 m c) (fun w => (dats m 0 c).arrAt w cfg0.N) (Proc.devRef .tc main_v5) = Region.layerRows m c :=
    (Pipeline.withArrays_arr spec0 launch0.win.arr_inj c (V0 m c) (fun w => (dats m 0 c).arrAt w cfg0.N) 3).trans (Region.result_rows m c)
  funext i
  obtain ⟨b, s, o, rfl⟩ : ∃ (b : Fin 4) (s : Fin 2048) (o : Fin 16384), i = ix3 b s o := ⟨i 0, i 1, i 2, eq_ix3 i⟩
  have hr : b.val * 2048 + s.val < 8192 := by have := b.isLt; have := s.isLt; omega
  show shapeCast S4x2048x16384 (Pipeline.withArrays spec0 c (V0 m c) (fun w => (dats m 0 c).arrAt w cfg0.N) (Proc.devRef .tc main_v5))
      shapeCasts_S8192x16384_S4x2048x16384 (ix3 b s o) = _
  rw [hw]
  refine (shapeCast_apply _ shapeCasts_S8192x16384_S4x2048x16384 (ix3 b s o) (ix2 (⟨b.val * 2048 + s.val, hr⟩ : Fin 8192) o) (by
    rw [Shape.rowMajor_val_two, Shape.rowMajor_val_three]
    rfl)).trans ?_
  show Cert.SignDense.rows (V m c main_v1) (V m c main_v3) (V m c main_v4) (ix2 (⟨b.val * 2048 + s.val, hr⟩ : Fin 8192) o) = _
  rw [signs_launched]
  exact Cert.SignDense.rows_flat _ _ _ _ _ (fun b s r hr k => rows_launched_apply m c b s r hr k) (bias_launched_apply m c) b s o _ rfl

/-! ## The run -/

/-- Every weakly fair execution of the kernel program ends with the result array at the layer of the launched arguments
    and the arguments as launched. -/
theorem run : θ_run defs (onTc (τ := τ) (main (F := Ideal))) ⟨m, fun _ => 0, ρ⟩ fun r => ∀ c : Dev nD,
      r.2.mem ((c.tc : Thread nD τ).loc main_v6)
        = Cert.SignDense.dense (m ((c.tc : Thread nD τ).loc main_arg0)) (Host.sign (F := Ideal) (φ := .f32) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  A dense layer over sign-binarised weights, as a tiled kernel and as a plain contraction: the two are one function.

  Both programs compute, for activations `x : [4, 2048, 4096]`, weights `W : [16384, 4096]` and a bias `[16384]`,

      out[b, s, o] = (Σ_{k < 4096} x[b, s, k] · sign(W)[o, k]) + bias[o]       (`SignDense.dense`, Proof/Spec.lean)

  over the extended reals.  The reference does so in one contraction and a broadcast add (Proof/RefValue.lean reads its
  five operations at an index).  The kernel program flattens the activations to 8192 rows, takes the sign of the weights,
  and runs an 8 × 32 grid whose point `(i, j)` multiplies activation rows `[1024 i, +1024)` against weight-sign rows
  `[512 j, +512)` on the matrix unit into a zero accumulator, adds the bias columns `[512 j, +512)`, and writes the
  `[1024, 512]` tile at `(1024 i, 512 j)`; a final view restores the `[4, 2048, 16384]` shape.  The changes of float
  format on the way are the identity on extended reals, the matrix unit's product into zero is the sum of the products,
  the tiles cover the result, and row `2048 b + s` of the flattened arrays is position `(b, s)` (Proof/Tile.lean,
  Proof/Region.lean, Proof/Whole.lean).  No sum is regrouped and nothing is distributed or cancelled, so the finiteness
  of the inputs is never used; the sign is the same entrywise function on both sides and is never opened.

  The idealization rewrites no operation, so its preservation claim is empty; the two kernel frames are the generated
  ones and the reference's frame is its run with the result dropped.
-/
import proofs.«413620_j18580028523110_3_alg».proof.Defs
import proofs.«413620_j18580028523110_3_alg».proof.Proof.Gen.Kernel
import proofs.«413620_j18580028523110_3_alg».proof.Proof.Gen.Kernel.Skeleton
import proofs.«413620_j18580028523110_3_alg».proof.Proof.Gen.Kernel.Launch
import proofs.«413620_j18580028523110_3_alg».proof.Proof.Gen.Kernel.Points
import proofs.«413620_j18580028523110_3_alg».proof.Proof.Gen.Kernel.Frame
import proofs.«413620_j18580028523110_3_alg».proof.Proof.Gen.KernelIdeal
import proofs.«413620_j18580028523110_3_alg».proof.Proof.Gen.KernelIdeal.Skeleton
import proofs.«413620_j18580028523110_3_alg».proof.Proof.Gen.KernelIdeal.Launch
import proofs.«413620_j18580028523110_3_alg».proof.Proof.Gen.KernelIdeal.Points
import proofs.«413620_j18580028523110_3_alg».proof.Proof.Gen.KernelIdeal.Frame
import proofs.«413620_j18580028523110_3_alg».proof.Proof.Gen.ReferenceIdeal
import proofs.«413620_j18580028523110_3_alg».proof.Proof.Gen.ReferenceIdeal.Run
import proofs.«413620_j18580028523110_3_alg».proof.Proof.Gen.ReferenceIdeal.Read
import proofs.«413620_j18580028523110_3_alg».proof.Proof.Gen.Pre_finite_inputs
import proofs.«413620_j18580028523110_3_alg».proof.Proof.RefValue
import proofs.«413620_j18580028523110_3_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the layer `SignDense.dense` of the activations, the sign matrix
    of the weights and the bias in their result arrays. -/
theorem algebraic : Cert.algebraic_KernelIdeal_ReferenceIdeal := by
  intro m ρ m' ρ' _ hagree
  refine ⟨fun c => Cert.SignDense.dense (m ((c.tc : Thread Cert.KernelIdeal.nD Cert.KernelIdeal.τ).loc Cert.KernelIdeal.main_arg0))
      (Host.sign (F := Ideal) (φ := .f32) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v4_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
